-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200704x512 : Shape := ⟨2, ![200704, 512]⟩
abbrev S_ : Shape := ⟨0, ![]⟩

class Facts : Prop where
  bcast_S_S200704x512 : S_.BroadcastsInDim S200704x512 (![] : Fin 0 → Fin S200704x512.rank)
  reducesTo_S200704x512_S_d0_1 : S200704x512.ReducesTo [0, 1] S_
  h_S_ : 0 < S_.numel

variable [Facts]

def fn {F : FTy → Type} [FloatOps F] (main_arg0 : FVec F S200704x512 .f32) : IVec S_ 1 :=
  let main_v0 : FVec F S200704x512 .f32 := Host.absf main_arg0
  let main_cst : FVec F S_ .f32 := constant S_ .f32 0x7F800000#32
  let main_v1 : FVec F S200704x512 .f32 := broadcastInDim S200704x512 ![] bcast_S_S200704x512 main_cst
  let main_v2 : IVec S200704x512 1 := cmpf .olt main_v0 main_v1
  let main_c : IVec S_ 1 := constantI S_ 1 1#1
  let main_v3 : IVec S_ 1 := (fun x v => Host.reduce IntOp.andi x v reducesTo_S200704x512_S_d0_1 h_S_) main_v2 main_c
  main_v3
-- ==== Kernel.lean ====
abbrev S200704x512 : Shape := ⟨2, ![200704, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S200704x512, .f32⟩
  | .hbm, ⟨1, _⟩ => ⟨S200704x512, .i32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | _, _ => ⟨S200704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S200704x512.size a
  hwx0_0 : ∀ i : grid0.Coords, EltTy.bits .f32 = 32 ∨ (Rect.block (s := S200704x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S200704x512.size a
  hwx0_1 : ∀ i : grid0.Coords, EltTy.bits .i32 = 32 ∨ (Rect.block (s := S200704x512) S1024x512.size (cc0_transform_1 i) (hinb0_1 i)).WholeWords (EltTy.packing .i32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S200704x512 : Shape := ⟨2, ![200704, 512]⟩
abbrev S_ : Shape := ⟨0, ![]⟩
abbrev S200704 : Shape := ⟨1, ![200704]⟩
abbrev S200704x1 : Shape := ⟨2, ![200704, 1]⟩

abbrev nBuf : Space → Nat
  | .hbm => 7
  | .vmem => 0
  | .smem => 0
  | _ => 0

abbrev bufTy : (tb : Table) → Fin (tcTables nBuf tb) → BufTy
  | .hbm, ⟨0, _⟩ => ⟨S200704x512, .f32⟩
  | .hbm, ⟨1, _⟩ => ⟨S_, .f32⟩
  | .hbm, ⟨2, _⟩ => ⟨S200704, .f32⟩
  | .hbm, ⟨3, _⟩ => ⟨S200704x1, .f32⟩
  | .hbm, ⟨4, _⟩ => ⟨S200704x512, .f32⟩
  | .hbm, ⟨5, _⟩ => ⟨S200704x512, .i1⟩
  | .hbm, ⟨6, _⟩ => ⟨S200704x512, .i32⟩
  | _, _ => ⟨S200704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  reducesTo_S200704x512_S200704_d1 : S200704x512.ReducesTo [1] S200704
  h_S_ : 0 < S_.numel
  bcast_S200704_S200704x1_0 : S200704.BroadcastsInDim S200704x1 (![0] : Fin 1 → Fin S200704x1.rank)
  bcast_S200704x1_S200704x512_0_1 : S200704x1.BroadcastsInDim S200704x512 (![0, 1] : Fin 2 → Fin S200704x512.rank)
  natLt_1_32 : 1 < 32

variable [Facts₀]

class Facts : Prop extends Facts₀ where

variable [Facts]
-- ==== Proof.RowMaxMask.lean ====
/-
  The function both programs compute, stated once over an array of extended reals with R rows and C columns.

  Every row has a largest entry: the fold of `max` over the row's C entries, started from -∞ (the float word
  0xFF800000).  The result array holds, at (r, k), the one-bit answer to "entry (r, k) equals the largest entry of
  row r", widened with zeros to a 32-bit word: 1 where the entry attains its row's maximum (ties give several ones
  in a row) and 0 elsewhere.

  An entry of the result depends on row r only.  So a band of whole rows cut out of a taller array has, row for
  row, the same result as the taller array (`maskAt_congr`): this is what lets a program that walks the array in
  bands of 1024 whole rows agree with one that treats the array at once.
-/
import Idealize.ShloMosaic.PureOps.Ideal
import Idealize.ShloMosaic.Lib.ValueIdx

noncomputable section

namespace Cert.RowMaxMask

open Idealize.ShloMosaic Idealize.ShloMosaic.ValueIdx

/-- The largest entry of row `r`: `max` folded over the row's columns from -∞. -/
def rowMax {R C : Nat} (x : FVec Ideal ⟨2, ![R, C]⟩ .f32) (r : Fin R) : EReal :=
  (Finset.univ : Finset (Fin C)).fold max (FloatOps.ofBits (F := Ideal) .f32 0xFF800000#32) (fun k => x (ix2 r k))

/-- Entry (r, k) of the result: is x(r, k) equal to the largest entry of row r?  One bit, widened to a word. -/
def maskAt {R C : Nat} (x : FVec Ideal ⟨2, ![R, C]⟩ .f32) (r : Fin R) (k : Fin C) : BitVec 32 :=
  (FloatOps.cmpf (F := Ideal) .oeq (x (ix2 r k)) (rowMax x r)).setWidth 32

/-- The whole result array. -/
def mask {R C : Nat} (x : FVec Ideal ⟨2, ![R, C]⟩ .f32) : IVec ⟨2, ![R, C]⟩ 32 :=
  fun i => maskAt x (i 0) (i 1)

theorem mask_apply {R C : Nat} (x : FVec Ideal ⟨2, ![R, C]⟩ .f32) (r : Fin R) (k : Fin C) :
    mask x (ix2 r k) = maskAt x r k := rfl

/-- Two arrays that agree along a row have the same largest entry there. -/
theorem rowMax_congr {R R' C : Nat} (x : FVec Ideal ⟨2, ![R, C]⟩ .f32) (y : FVec Ideal ⟨2, ![R', C]⟩ .f32)
    (r : Fin R) (r' : Fin R') (h : ∀ k : Fin C, x (ix2 r k) = y (ix2 r' k)) : rowMax x r = rowMax y r' := by
  have e : (fun k => x (ix2 r k)) = fun k => y (ix2 r' k) := funext h
  unfold rowMax
  rw [e]

/-- ... and so the same result along that row: a band of whole rows is treated as the whole array treats it. -/
theorem maskAt_congr {R R' C : Nat} (x : FVec Ideal ⟨2, ![R, C]⟩ .f32) (y : FVec Ideal ⟨2, ![R', C]⟩ .f32)
    (r : Fin R) (r' : Fin R') (h : ∀ k : Fin C, x (ix2 r k) = y (ix2 r' k)) (k : Fin C) :
    maskAt x r k = maskAt y r' k := by
  unfold maskAt
  rw [rowMax_congr x y r r' h, h k]

end Cert.RowMaxMask

end
-- ==== Proof.RefMask.lean ====
/-
  The reference program's result, read index by index, is the row-maximum mask of its argument.

  The reference takes each row's maximum with one reduction over the column axis, started from -∞, lays the column of
  maxima out again along every row (two broadcasts: rows to a one-column array, then across the 512 columns),
  compares the argument with it entry by entry and widens the one-bit answers to words.  The reduction folds `max`,
  which is commutative and associative on the extended reals, so at row r it is the fold over the row's 512 entries in
  any order: the specification's `rowMax`.  The broadcasts read the maximum of the entry's own row, and the
  comparison and the widening are entrywise.
-/
import proofs.«149336_j3813930959300_1_alg».proof.Proof.Gen.ReferenceIdeal.Read
import proofs.«149336_j3813930959300_1_alg».proof.Proof.RowMaxMask
import Idealize.ShloMosaic.PureOps.Ideal.Laws
import Idealize.ShloMosaic.Lib.ValueIdx

noncomputable section

namespace Cert.ReferenceIdeal.MaskValue

open Cert.ReferenceIdeal Cert.ReferenceIdeal.Gen Cert.ReferenceIdeal.Read Cert.RowMaxMask
open Idealize.ShloMosaic Idealize.ShloMosaic.ValueIdx

/-- The shape fact the fold-over-a-row reading of the reduction names its inserted index by. -/
theorem reduces_rows : S200704x512.Reduces [1] S200704 := by decide

/-- Row r's entry of the reduction is the largest entry of row r. -/
theorem rowmax_apply (x : FVec Ideal S200704x512 .f32) (r : Fin 200704) :
    val_main_v0 (F := Ideal) x (ix1 r) = rowMax x r := by
  unfold val_main_v0
  refine (Host.reduce_eq_fold_single (FloatOps.maximumf (F := Ideal) (φ := .f32)) x (val_main_cst (F := Ideal))
    reducesTo_S200704x512_S200704_d1 reduces_rows h_S_ (ix1 r)).trans ?_
  unfold rowMax
  have e : (x ∘ reduces_rows.lift (ix1 r)) = fun k : Fin 512 => x (ix2 r k) := by
    funext k
    show x (reduces_rows.lift (ix1 r) k) = x (ix2 r k)
    congr 1
    funext a
    apply Fin.ext
    match a with
    | ⟨0, _⟩ => rfl
    | ⟨1, _⟩ => rfl
  rw [e]
  rfl

/-- The reference's result at (r, k) is the mask's entry there. -/
theorem result_apply (x : FVec Ideal S200704x512 .f32) (r : Fin 200704) (k : Fin 512) :
    val_main_v4 (F := Ideal) x (ix2 r k) = maskAt x r k := by
  rw [val_main_v4_apply, val_main_v3_apply, val_main_v2_apply, val_main_v1_apply]
  have e : idx_main_v1 (idx_main_v2 (ix2 r k)) = ix1 r := by
    funext a
    match a with
    | ⟨0, _⟩ => rfl
  rw [e, rowmax_apply]
  rfl

/-- The reference's whole result is the mask of its argument. -/
theorem result_eq (x : FVec Ideal S200704x512 .f32) : val_main_v4 (F := Ideal) x = mask x := by
  funext i
  obtain ⟨r, k, rfl⟩ : ∃ (r : Fin 200704) (k : Fin 512), i = ix2 r k := ⟨i 0, i 1, eq_ix2 i⟩
  rw [result_apply, mask_apply]

end Cert.ReferenceIdeal.MaskValue

end
-- ==== Proof.KernelMask.lean ====
/-
  The kernel's result array, after all 196 grid points, is the row-maximum mask of its argument.

  The kernel walks the 200704 x 512 argument in 196 bands of 1024 whole rows.  At point t it loads band t (rows
  1024 t .. 1024 t + 1023, all 512 columns), takes every row's maximum inside the band, compares the band with its row
  maxima entry by entry, widens the answers to words, and writes the band of answers back to rows 1024 t .. of the
  result.

  Because a band holds whole rows, the largest entry of the band's row p is the largest entry of the argument's row
  1024 t + p: the band's answers are the whole array's answers on those rows (`RowMaxMask.maskAt_congr`).  Every row
  of the result lies in exactly one band (row r in band r / 1024), so the bands written back cover the result, and
  the result is the mask of the argument everywhere.
-/
import proofs.«149336_j3813930959300_1_alg».proof.Proof.Gen.KernelIdeal.Value
import proofs.«149336_j3813930959300_1_alg».proof.Proof.RowMaxMask
import Idealize.ShloMosaic.PureOps.Ideal.Laws
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.MaskValue

open Cert.KernelIdeal Cert.KernelIdeal.Gen Cert.KernelIdeal.Value Cert.RowMaxMask
open Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-! ## One band -/

/-- Inside a band, the lane reduction at row p is the largest entry of the band's row p. -/
theorem band_rowmax (b : FVec Ideal S1024x512 .f32) (p : Fin 1024) :
    multiReduction (F := Ideal) .maximumf [1] S1024 b 0xFF800000#32 reduces_S1024x512_S1024 (.inl rfl) rfl (ix1 p)
      = rowMax b p := by
  refine (Ideal.multiReduction_maximumf_single b 0xFF800000#32 reduces_S1024x512_S1024 (.inl rfl) rfl (ix1 p)).trans ?_
  unfold rowMax
  have e : (b ∘ reduces_S1024x512_S1024.lift (ix1 p)) = fun k : Fin 512 => b (ix2 p k) := by
    funext k
    show b (reduces_S1024x512_S1024.lift (ix1 p) k) = b (ix2 p k)
    congr 1
    funext a
    apply Fin.ext
    match a with
    | ⟨0, _⟩ => rfl
    | ⟨1, _⟩ => rfl
  rw [e]
  rfl

/-- What the body leaves in the output block at (p, k): the mask's entry for the band. -/
theorem band_mask (b : FVec Ideal S1024x512 .f32) (p : Fin 1024) (k : Fin 512) :
    E1 (F := Ideal) b (ix2 p k) = maskAt b p k := by
  show (FloatOps.cmpf (F := Ideal) .oeq (b (ix1_0 (ix2 p k)))
      (multiReduction (F := Ideal) .maximumf [1] S1024 b 0xFF800000#32 reduces_S1024x512_S1024 (.inl rfl) rfl (ix1_1 (ix2 p k)))).setWidth 32 = _
  have e0 : ix1_0 (ix2 p k) = ix2 p k := by
    funext a
    match a with
    | ⟨0, _⟩ => rfl
    | ⟨1, _⟩ => rfl
  have e1 : ix1_1 (ix2 p k) = ix1 p := by
    funext a
    match a with
    | ⟨0, _⟩ => rfl
  rw [e0, e1, band_rowmax]
  rfl

/-! ## A band is rows of the argument -/

/-- The printed index maps over the grid: point t stages band t, at column block 0, for the input and the output. -/
theorem band_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry (p, k) of the band staged at point t is entry (1024 t + p, k) of the argument. -/
theorem band_apply (c : Dev nD) (t : Fin cfg0.N) (y : S1024x512.Idx) (i : S200704x512.Idx)
    (h0 : (i 0).val = 1024 * t.val + (y 0).val) (h1 : (i 1).val = (y 1).val) :
    (iblk m c 0 t : Vec Ideal S1024x512 .f32) y = (m ((c : Thread nD τ).loc main_arg0) : S200704x512.Idx → Elt Ideal .f32) i := by
  obtain ⟨e0, e1, -, -⟩ := band_index t
  unfold iblk
  rw [View.read_apply]
  show V m c main_arg0 _ = m (c.tc.loc main_arg0) _
  unfold V
  congr 1
  funext a
  apply Fin.ext
  match a with
  | ⟨0, _⟩ => show win0_0.index t 0 * 1024 + 1 * (y 0).val = (i 0).val; rw [e0, h0]; omega
  | ⟨1, _⟩ => show win0_0.index t 1 * 512 + 1 * (y 1).val = (i 1).val; rw [e1, h1]; omega

/-- What point t leaves at (p, k) of its output block is the argument's mask at (1024 t + p, k). -/
theorem point_mask (c : Dev nD) (t : Fin cfg0.N) (y : S1024x512.Idx) (i : S200704x512.Idx)
    (h0 : (i 0).val = 1024 * t.val + (y 0).val) (h1 : (i 1).val = (y 1).val) :
    E1 (F := Ideal) (iblk m c 0 t : Vec Ideal S1024x512 .f32) y
      = mask (m ((c : Thread nD τ).loc main_arg0) : FVec Ideal S200704x512 .f32) i := by
  obtain ⟨p, k, rfl⟩ : ∃ (p : Fin 1024) (k : Fin 512), y = ix2 p k := ⟨y 0, y 1, eq_ix2 y⟩
  obtain ⟨r, k', rfl⟩ : ∃ (r : Fin 200704) (k' : Fin 512), i = ix2 r k' := ⟨i 0, i 1, eq_ix2 i⟩
  obtain rfl : k' = k := Fin.ext h1
  rw [mask_apply, band_mask]
  exact maskAt_congr _ _ p r (fun q => band_apply m c t (ix2 p q) (ix2 r q) h0 rfl) k'

/-! ## From bands to the array -/

/-- What point t writes back is band t of the argument's mask. -/
theorem flushed_eq (c : Dev nD) (t : Fin cfg0.N) :
    (dats m 0 c).flushed 1 t
      = ((cfg0.win 1).blk t).view.read (Elt Ideal) (mask (m ((c : Thread nD τ).loc main_arg0) : FVec Ideal S200704x512 .f32)) := by
  rw [flushed1]
  unfold out0_1
  simp only [View.ld_unit_zero (S := S1024x512) zero_offsets]
  obtain ⟨-, -, e0, e1⟩ := band_index t
  funext j
  show (View.canon [⟨r0_0, k0_pay1 (F := Ideal) (iblk m c 0 t : Vec Ideal S1024x512 .f32)⟩] : Vec Ideal S1024x512 .i32) j
    = mask (m ((c : Thread nD τ).loc main_arg0) : FVec Ideal S200704x512 .f32) (((cfg0.win 1).blk t).view.emb j)
  refine (canon1_eq (F := Ideal) (iblk m c 0 t : Vec Ideal S1024x512 .f32) j).trans ?_
  refine point_mask m c t j _ ?_ ?_
  · show win0_1.index t 0 * 1024 + 1 * (j 0).val = 1024 * t.val + (j 0).val
    rw [e0]; omega
  · show win0_1.index t 1 * 512 + 1 * (j 1).val = (j 1).val
    rw [e1]; omega

/-- An index of the result is in point t's block iff each coordinate is in the block's range on its axis. -/
theorem mem_band (t : Fin cfg0.N) (i : S200704x512.Idx) :
    i ∈ ((cfg0.win 1).blk t).view.set ↔ ∀ a : Fin 2, win0_1.index t a * S1024x512.size a ≤ (i a).val ∧ (i a).val < win0_1.index t a * S1024x512.size a + S1024x512.size a := by
  show i ∈ ((View.whole main_v0).slice (win0_1.rect t)).set ↔ _
  rw [View.set_slice_whole, Rect.mem_set_unit]
  exact Iff.rfl

/-- Every entry of the result is in the band of its row: row r in band r / 1024. -/
theorem covered (i : S200704x512.Idx) :
    ∃ t : Fin cfg0.N, (cfg0.win 1).flush t = true ∧ i ∈ ((cfg0.win 1).blk t).view.set := by
  have hi0 : (i 0).val < 200704 := (i 0).isLt
  have hi1 : (i 1).val < 512 := (i 1).isLt
  have hN : cfg0.N = 196 := N_0
  let t : Fin cfg0.N := ⟨(i 0).val / 1024, by rw [hN]; omega⟩
  obtain ⟨-, -, e0, e1⟩ := band_index t
  have ht : t.val = (i 0).val / 1024 := rfl
  refine ⟨t, flush0_1 t, ?_⟩
  rw [mem_band]
  intro a
  match a with
  | ⟨0, _⟩ => show win0_1.index t (0 : Fin 2) * 1024 ≤ (i 0).val ∧ (i 0).val < win0_1.index t (0 : Fin 2) * 1024 + 1024; rw [e0, ht]; omega
  | ⟨1, _⟩ => show win0_1.index t (1 : Fin 2) * 512 ≤ (i 1).val ∧ (i 1).val < win0_1.index t (1 : Fin 2) * 512 + 512; rw [e1]; omega

/-- So the result array ends holding the mask of the argument. -/
theorem final (c : Dev nD) :
    (dats m 0 c).arrAt 1 cfg0.N = mask (m ((c : Thread nD τ).loc main_arg0) : FVec Ideal S200704x512 .f32) :=
  (dats m 0 c).arrAt_eq_of_cover 1 _ (fun t _ => flushed_eq m c t) covered

/-- The kernel's run, read: the result at the mask of the argument, the argument unchanged. -/
theorem run : θ_run defs (onTc (τ := τ) (main (F := Ideal))) ⟨m, fun _ => 0, ρ⟩ fun r => ∀ c : Dev nD,
      r.2.mem ((c : Thread nD τ).loc main_v0) = mask (m ((c : Thread nD τ).loc main_arg0) : FVec Ideal S200704x512 .f32)
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.MaskValue

end
-- ==== Proof.lean ====
/-
  A row-maximum mask: for a 200704 x 512 array x of floats, the result holds 1 at (r, k) where x(r, k) equals the
  largest entry of row r (ties give several ones in a row) and 0 elsewhere.

  The kernel computes it band by band — 196 bands of 1024 whole rows, each band's row maxima taken inside the band —
  and the reference with one reduction over the column axis of the whole array.  Read over the extended reals both
  are the same function of the argument: a band holds whole rows, so a row's maximum inside its band is its maximum
  in the array; `max` is commutative and associative, so the order in which either program folds a row does not
  matter; and the comparison and the widening of its one-bit answer are entrywise.  No arithmetic law that could fail
  at an infinity is used, so finiteness of the input is never opened.

  Proof/RowMaxMask.lean states the function; Proof/RefMask.lean reads the reference's result as it; Proof/KernelMask.lean
  reads the kernel's result array as it, from what each grid point writes back and the fact that the bands cover the
  array.  The three frames are the generated runs; the idealization rewrote nothing, so `preserves` has nothing to say.
-/
import proofs.«149336_j3813930959300_1_alg».proof.Defs
import proofs.«149336_j3813930959300_1_alg».proof.Proof.Gen.Kernel
import proofs.«149336_j3813930959300_1_alg».proof.Proof.Gen.Kernel.Skeleton
import proofs.«149336_j3813930959300_1_alg».proof.Proof.Gen.Kernel.Launch
import proofs.«149336_j3813930959300_1_alg».proof.Proof.Gen.Kernel.Points
import proofs.«149336_j3813930959300_1_alg».proof.Proof.Gen.Kernel.Frame
import proofs.«149336_j3813930959300_1_alg».proof.Proof.Gen.KernelIdeal
import proofs.«149336_j3813930959300_1_alg».proof.Proof.Gen.KernelIdeal.Skeleton
import proofs.«149336_j3813930959300_1_alg».proof.Proof.Gen.KernelIdeal.Launch
import proofs.«149336_j3813930959300_1_alg».proof.Proof.Gen.KernelIdeal.Points
import proofs.«149336_j3813930959300_1_alg».proof.Proof.Gen.KernelIdeal.Frame
import proofs.«149336_j3813930959300_1_alg».proof.Proof.Gen.ReferenceIdeal
import proofs.«149336_j3813930959300_1_alg».proof.Proof.Gen.Pre_finite_inputs
import proofs.«149336_j3813930959300_1_alg».proof.Proof.Gen.KernelIdeal.Value
import proofs.«149336_j3813930959300_1_alg».proof.Proof.Gen.ReferenceIdeal.Run
import proofs.«149336_j3813930959300_1_alg».proof.Proof.Gen.ReferenceIdeal.Read
import proofs.«149336_j3813930959300_1_alg».proof.Proof.RowMaxMask
import proofs.«149336_j3813930959300_1_alg».proof.Proof.RefMask
import proofs.«149336_j3813930959300_1_alg».proof.Proof.KernelMask
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's result both end at the row-maximum
    mask of the argument. -/
theorem algebraic : Cert.algebraic_KernelIdeal_ReferenceIdeal := by
  intro m ρ m' ρ' _ hagree
  refine ⟨fun c => Cert.RowMaxMask.mask
      (m ((c.tc : Thread Cert.KernelIdeal.nD Cert.KernelIdeal.τ).loc Cert.KernelIdeal.main_arg0) : FVec Ideal Cert.KernelIdeal.S200704x512 .f32),
    Cert.KernelIdeal.MaskValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.MaskValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
